-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S1 : Shape := ⟨1, ![1]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : IVec S1 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  main_v3
-- ==== Kernel.lean ====
abbrev S16777216 : Shape := ⟨1, ![16777216]⟩
abbrev S1 : Shape := ⟨1, ![1]⟩
abbrev S131072x128 : Shape := ⟨2, ![131072, 128]⟩
abbrev S1x1 : Shape := ⟨2, ![1, 1]⟩
abbrev S_ : Shape := ⟨0, ![]⟩
abbrev S4096x128 : Shape := ⟨2, ![4096, 128]⟩
abbrev S4096 : Shape := ⟨1, ![4096]⟩
abbrev S4096x1 : Shape := ⟨2, ![4096, 1]⟩

abbrev nBuf : Space → Nat
  | .hbm => 7
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S1, .i32⟩
  | .hbm, ⟨2, _⟩ => ⟨S131072x128, .f32⟩
  | .hbm, ⟨3, _⟩ => ⟨S131072x128, .f32⟩
  | .hbm, ⟨4, _⟩ => ⟨S1x1, .f32⟩
  | .hbm, ⟨5, _⟩ => ⟨S16777216, .f32⟩
  | .hbm, ⟨6, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_call0_v1_1 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v17 : BitVec 1 := Scalar.cmpi .eq arg0 c31_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16777216_S131072x128 : S16777216.ShapeCasts S131072x128
  shapeCasts_S131072x128_S16777216 : S131072x128.ShapeCasts S16777216
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_call0_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1_0) S4096x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S1 : Shape := ⟨1, ![1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S1, .i32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S16777216, .f32⟩
  | .hbm, ⟨7, _⟩ => ⟨S_, .f32⟩
  | .hbm, ⟨8, _⟩ => ⟨S16777216, .f32⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Pieces.lean ====
/-
  What each of the body's three control cases leaves behind, read as values of the blocks it was given
  (x: the scores block; a: the running total the point before left in the carried 1 × 1 scratch):
    first point  — decisions block σ(x); scratch: the total over the reset value;
    middle point — decisions block σ(x); scratch: the total over a;
    last point   — the same two, and the loss block receives the scratch's new contents.
  Each is the one covering store's payload (at the first point the scratch is stored twice: the reset, then the
  update, which reads the reset back), with every load reading a whole buffer.
-/
import proofs.«121995_j57947698757715_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- First point: the decisions block. -/
theorem first_decisions (c : Dev nD) (i : grid0.Coords) (a1 : Memref sig .tc .vmem S4096x128 .f32) (h1 : a1.IsWhole) (a2 : Memref sig .tc .vmem S4096x128 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i) (x : Vec F S4096x128 .f32) :
    out0_A_1 c i a1 h1 a2 h2 a3 h3 a4 h4 hc0 hc1 x = k0_pay2 x := by
  unfold out0_A_1
  rw [View.read_writes_eq_canon _ _ _ (cover0_A_1 c i a1 h1 a2 h2 a3 h3 a4 h4 hc0 hc1 x)]
  unfold kernelRun0_A
  dsimp only
  sl_unfold_words
  rw [View.canon_unit_zero hz]
  simp only [View.readAt_eq_ld, h1.read_unread, View.ld_unit_zero (S := S4096x128) hz]

/-- First point: the scratch, the total over the reset value. -/
theorem first_total (c : Dev nD) (i : grid0.Coords) (a1 : Memref sig .tc .vmem S4096x128 .f32) (h1 : a1.IsWhole) (a2 : Memref sig .tc .vmem S4096x128 .f32) (h2 : a2.IsWhole) (a3 : Memref sig .tc .vmem S1x1 .f32) (h3 : a3.IsWhole) (a4 : Memref sig .tc .vmem S1x1 .f32) (h4 : a4.IsWhole) (hc0 : cond0_0 i) (hc1 : ¬cond0_1 i) (x : Vec F S4096x128 .f32) :
    sout0_A_0 c i a1 h1 a2 h2 a3 h3 a4 h4 hc0 hc1 x = k0_pay3 x (k0_pay1 (F := F)) := by
  unfold sout0_A_0
  rw [View.read_writes_eq_canon _ _ _ (scover0_A_0 c i a1 h1 a2 h2 a3 h3 a4 h4 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S4096x128) hz]

/-- Middle point: the decisions block. -/
theorem middle_decisions (c : Dev nD) (i : grid0.Coords) (a1 : Memref sig .tc .vmem S4096x128 .f32) (h1 : a1.IsWhole) (a2 : Memref sig .tc .vmem S4096x128 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i) (x : Vec F S4096x128 .f32) (a : Vec F S1x1 .f32) :
    out0_B_1 c i a1 h1 a2 h2 a3 h3 a4 h4 hc0 hc1 x a = k0_pay2 x := by
  unfold out0_B_1
  rw [View.read_writes_eq_canon _ _ _ (cover0_B_1 c i a1 h1 a2 h2 a3 h3 a4 h4 hc0 hc1 x a)]
  unfold kernelRun0_B
  dsimp only
  sl_unfold_words
  rw [View.canon_unit_zero hz]
  simp only [View.readAt_eq_ld, h1.read_unread, View.ld_unit_zero (S := S4096x128) hz]

/-- Middle point: the scratch, the total over what the point before left. -/
theorem middle_total (c : Dev nD) (i : grid0.Coords) (a1 : Memref sig .tc .vmem S4096x128 .f32) (h1 : a1.IsWhole) (a2 : Memref sig .tc .vmem S4096x128 .f32) (h2 : a2.IsWhole) (a3 : Memref sig .tc .vmem S1x1 .f32) (h3 : a3.IsWhole) (a4 : Memref sig .tc .vmem S1x1 .f32) (h4 : a4.IsWhole) (hc0 : ¬cond0_0 i) (hc1 : ¬cond0_1 i) (x : Vec F S4096x128 .f32) (a : Vec F S1x1 .f32) :
    sout0_B_0 c i a1 h1 a2 h2 a3 h3 a4 h4 hc0 hc1 x a = k0_pay3 x a := by
  unfold sout0_B_0
  rw [View.read_writes_eq_canon _ _ _ (scover0_B_0 c i a1 h1 a2 h2 a3 h3 a4 h4 hc0 hc1 x a)]
  unfold kernelRun0_B
  dsimp only
  sl_unfold_words
  rw [View.canon_unit_zero hz]
  simp only [View.readAt_eq_ld, h1.read_unread, h4.read_unread, View.ld_unit_zero (S := S4096x128) hz, View.ld_unit_zero (S := S1x1) hz]

/-- Last point: the decisions block. -/
theorem last_decisions (c : Dev nD) (i : grid0.Coords) (a1 : Memref sig .tc .vmem S4096x128 .f32) (h1 : a1.IsWhole) (a2 : Memref sig .tc .vmem S4096x128 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i) (x : Vec F S4096x128 .f32) (a : Vec F S1x1 .f32) :
    out0_C_1 c i a1 h1 a2 h2 a3 h3 a4 h4 hc0 hc1 x a = k0_pay2 x := by
  unfold out0_C_1
  rw [View.read_writes_eq_canon _ _ _ (cover0_C_1 c i a1 h1 a2 h2 a3 h3 a4 h4 hc0 hc1 x a)]
  unfold kernelRun0_C
  dsimp only
  sl_unfold_words
  rw [View.canon_unit_zero hz]
  simp only [View.readAt_eq_ld, h1.read_unread, View.ld_unit_zero (S := S4096x128) hz]

/-- Last point: the scratch. -/
theorem last_total (c : Dev nD) (i : grid0.Coords) (a1 : Memref sig .tc .vmem S4096x128 .f32) (h1 : a1.IsWhole) (a2 : Memref sig .tc .vmem S4096x128 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i) (x : Vec F S4096x128 .f32) (a : Vec F S1x1 .f32) :
    sout0_C_0 c i a1 h1 a2 h2 a3 h3 a4 h4 hc0 hc1 x a = k0_pay3 x a := by
  unfold sout0_C_0
  rw [View.read_writes_eq_canon _ _ _ (scover0_C_0 c i a1 h1 a2 h2 a3 h3 a4 h4 hc0 hc1 x a)]
  unfold kernelRun0_C
  dsimp only
  sl_unfold_words
  rw [View.canon_unit_zero hz]
  simp only [View.readAt_eq_ld, h1.read_unread, h4.read_unread, View.ld_unit_zero (S := S4096x128) hz, View.ld_unit_zero (S := S1x1) hz]

/-- Last point: the loss block is the scratch's new contents. -/
theorem last_loss (c : Dev nD) (i : grid0.Coords) (a1 : Memref sig .tc .vmem S4096x128 .f32) (h1 : a1.IsWhole) (a2 : Memref sig .tc .vmem S4096x128 .f32) (h2 : a2.IsWhole) (a3 : Memref sig .tc .vmem S1x1 .f32) (h3 : a3.IsWhole) (a4 : Memref sig .tc .vmem S1x1 .f32) (h4 : a4.IsWhole) (hc0 : ¬cond0_0 i) (hc1 : cond0_1 i) (x : Vec F S4096x128 .f32) (a : Vec F S1x1 .f32) :
    out0_C_2 c i a1 h1 a2 h2 a3 h3 a4 h4 hc0 hc1 x a = k0_pay3 x a := by
  unfold out0_C_2
  rw [View.read_writes_eq_canon _ _ _ (cover0_C_2 c i a1 h1 a2 h2 a3 h3 a4 h4 hc0 hc1 x a)]
  unfold kernelRun0_C
  dsimp only
  sl_unfold_words
  rw [View.canon_unit_zero hz]
  simp only [View.readAt_eq_ld, h1.read_unread, h4.read_unread, View.readCov_unit_zero (S := S1x1) _ hz, View.ld_unit_zero (S := S4096x128) hz, View.ld_unit_zero (S := S1x1) hz]

end Cert.KernelIdeal.Pieces

end
-- ==== Proof.BlockValue.lean ====
/-
  What one grid point computes from its 4096 × 128 block x of scores, over the extended reals:
    * the decisions block is σ(x) entry by entry;
    * the partial loss is the sum over the block's rows of the sum over a row's lanes of σ(x)², taken as two
      reductions (lanes first, then rows) from the zero word, and added to the running total a it finds;
    * at the first point the running total is first set to the zero word, the number 0.
-/
import proofs.«121995_j57947698757715_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-- The reset value: every entry of the stored 1 × 1 block is 0. -/
theorem reset_apply (j : S1x1.Idx) : (k0_pay1 (F := Ideal)) j = 0 := by
  unfold k0_pay1
  rw [shapeCast_self]
  exact Ideal.ofBits_zero_f32

/-- The decisions block: the sigmoid of the scores block, entry by entry. -/
theorem sigmoid_apply (x : FVec Ideal S4096x128 .f32) (j : S4096x128.Idx) :
    k0_pay2 (F := Ideal) x j = Ideal.logistic (x j) := by
  unfold k0_pay2
  rw [shapeCast_self]
  rfl

/-- Lanes first, then rows: the two reductions of a 4096 × 128 block from the zero word are its double sum. -/
theorem rows_of_lanes (v : FVec Ideal S4096x128 .f32) (h1 : S4096x128.Reduces [1] S4096) (hc : S4096.ShapeCasts S4096x1)
    (h0 : S4096x1.Reduces [0] S1) (hφ : FKind.Formats .f32) (hacc : (0x00000000#32 : BitVec 32) = FKind.add.neutral .f32 hφ)
    (j : S1.Idx) :
    multiReduction .add [0] S1 (shapeCast S4096x1 (multiReduction .add [1] S4096 v 0x00000000#32 h1 hφ hacc) hc) 0x00000000#32 h0 hφ hacc j
      = ∑ r : Fin 4096, ∑ l : Fin 128, v (ix2 r l) := by
  refine (Ideal.multiReduction_add_single _ _ h0 hφ hacc j).trans ?_
  show ∑ r : Fin 4096, _ = _
  refine Finset.sum_congr rfl fun r _ => ?_
  refine (shapeCast_apply _ hc _ (ix1 r) ?_).trans ?_
  · rw [Shape.rowMajor_val_one, Shape.rowMajor_val_two]
    have e0 : (h0.lift j r 0).val = r.val := rfl
    have e1 : (h0.lift j r 1).val = (j 0).val := rfl
    have hj : (j 0).val < 1 := (j 0).isLt
    show r.val = (h0.lift j r 0).val * 1 + (h0.lift j r 1).val
    omega
  refine (Ideal.multiReduction_add_single _ _ h1 hφ hacc (ix1 r)).trans ?_
  show ∑ l : Fin 128, _ = _
  refine Finset.sum_congr rfl fun l _ => ?_
  exact congrArg v (funext fun a => match a with | ⟨0, _⟩ => rfl | ⟨1, _⟩ => rfl)

/-- The running total after a point: what it found plus the block's sum of squared sigmoids. -/
theorem total_apply (x : FVec Ideal S4096x128 .f32) (a : FVec Ideal S1x1 .f32) (j : S1x1.Idx) :
    k0_pay3 (F := Ideal) x a j = a j + ∑ r : Fin 4096, ∑ l : Fin 128, Ideal.logistic (x (ix2 r l)) * Ideal.logistic (x (ix2 r l)) := by
  unfold k0_pay3
  rw [shapeCast_self]
  refine congrArg (a j + ·) ?_
  refine (shapeCast_addUnit_apply ![1] _ _ j).trans ?_
  refine (rows_of_lanes _ _ _ _ _ _ _).trans ?_
  refine Finset.sum_congr rfl fun r _ => Finset.sum_congr rfl fun l _ => ?_
  show k0_pay2 (F := Ideal) x (ix2 r l) * k0_pay2 (F := Ideal) x (ix2 r l) = _
  rw [sigmoid_apply]

end Cert.KernelIdeal.BlockValue

end
-- ==== Proof.RunningTotal.lean ====
/-
  The accumulation across the 32 grid points. The 1 × 1 scratch is carried from point to point: the first point sets
  it to 0 and adds its block's partial loss, every later point adds its own. So after point n the scratch holds the
  fold  total n = step(xₙ, total (n−1)),  total 0 = step(x₀, 0),  where step(x, a) = a + ΣΣ σ(x)².
  Every point leaves σ(xₙ) in the decisions staging buffer, and the last point copies the scratch to the loss block.
  Over the extended reals the fold after point n is the plain sum of the partial losses of points 0 … n.
-/
import proofs.«121995_j57947698757715_1_alg».proof.Proof.Pieces
import proofs.«121995_j57947698757715_1_alg».proof.Proof.BlockValue

noncomputable section

namespace Cert.KernelIdeal.RunningTotal

open Cert.KernelIdeal Cert.KernelIdeal.Gen Cert.KernelIdeal.Pieces Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The scores block point `t` is given. -/
abbrev xblk (c : Dev nD) (t : Fin cfg0.N) : Vec F S4096x128 .f32 := iblk m c 0 t

/-- The running total after point `n`. -/
def total (c : Dev nD) : (n : ℕ) → n < cfg0.N → Vec F S1x1 .f32
  | 0, h => k0_pay3 (xblk m c ⟨0, h⟩) (k0_pay1 (F := F))
  | n + 1, h => k0_pay3 (xblk m c ⟨n + 1, h⟩) (total c n (Nat.lt_of_succ_lt h))

/-- The carried scratch after point `n` holds the running total: by induction on the point. -/
theorem scratch_eq (c : Dev nD) : ∀ (n : ℕ) (h : n < cfg0.N), (outsAt0 m c n h).2.2 = total m c n h
  | 0, h => by
    rw [outsAt0_A m c ⟨0, h⟩ (Nat.zero_mod _) (by dsimp only; omega)]
    dsimp only
    exact first_total c _ _ _ _ _ _ _ _ _ _ _ _
  | n + 1, h => by
    have hN : n + 1 < 32 := lt_of_lt_of_eq h (show cfg0.N = 32 from N_0)
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [last_total]
      show k0_pay3 _ (outsAt0 m c n _).2.2 = k0_pay3 _ (total m c n _)
      rw [scratch_eq c n]
    · rw [outsAt0_B m c ⟨n + 1, h⟩ h0 h1]
      dsimp only
      rw [middle_total]
      show k0_pay3 _ (outsAt0 m c n _).2.2 = k0_pay3 _ (total m c n _)
      rw [scratch_eq c n]

/-- Every point leaves the sigmoid of its scores block in the decisions staging buffer. -/
theorem decisions_eq (c : Dev nD) (t : Fin cfg0.N) : (outsAt0 m c t.val t.isLt).1 = k0_pay2 (xblk m c t) := by
  have hN : t.val < 32 := lt_of_lt_of_eq t.isLt (show cfg0.N = 32 from N_0)
  by_cases h0 : t.val % 32 = 0
  · have h1 : ¬t.val % 32 = 31 := by omega
    rw [outsAt0_A m c t h0 h1]
    dsimp only
    exact first_decisions c _ _ _ _ _ _ _ _ _ _ _ _
  · by_cases h1 : t.val % 32 = 31
    · rw [outsAt0_C m c t h0 h1]
      dsimp only
      exact last_decisions c _ _ _ _ _ _ _ _ _ _ _ _ _
    · rw [outsAt0_B m c t h0 h1]
      dsimp only
      exact middle_decisions c _ _ _ _ _ _ _ _ _ _ _ _ _

/-- The last point leaves the running total in the loss staging buffer. -/
theorem loss_eq (c : Dev nD) (t : Fin cfg0.N) (h1 : t.val % 32 = 31) : (outsAt0 m c t.val t.isLt).2.1 = total m c t.val t.isLt := by
  have h0 : ¬t.val % 32 = 0 := by omega
  rw [← scratch_eq m c t.val t.isLt, outsAt0_C m c t h0 h1]
  dsimp only
  rw [last_loss, last_total]

end Cert.KernelIdeal.RunningTotal

/-! ## Over the extended reals: the fold is a sum -/

namespace Cert.KernelIdeal.RunningTotal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The partial loss of point `s`: the sum over its block of the squared sigmoids. -/
def partialLoss (c : Dev nD) (s : ℕ) (h : s < cfg0.N) : EReal :=
  ∑ r : Fin 4096, ∑ l : Fin 128,
    Ideal.logistic ((xblk m c ⟨s, h⟩ : FVec Ideal S4096x128 .f32) (ix2 r l)) * Ideal.logistic ((xblk m c ⟨s, h⟩ : FVec Ideal S4096x128 .f32) (ix2 r l))

/-- After point `n` the running total is the sum of the partial losses of points 0 … n. -/
theorem total_apply (c : Dev nD) : ∀ (n : ℕ) (h : n < cfg0.N) (j : S1x1.Idx),
    (total m c n h : FVec Ideal S1x1 .f32) j = ∑ s : Fin (n + 1), partialLoss m c s.val (lt_of_le_of_lt (Nat.le_of_lt_succ s.isLt) h)
  | 0, h, j => by
    show k0_pay3 (F := Ideal) (xblk m c ⟨0, h⟩) (k0_pay1 (F := Ideal)) j = _
    rw [BlockValue.total_apply, BlockValue.reset_apply, zero_add, Fin.sum_univ_one]
    rfl
  | n + 1, h, j => by
    show k0_pay3 (F := Ideal) (xblk m c ⟨n + 1, h⟩) (total m c n (Nat.lt_of_succ_lt h)) j = _
    rw [BlockValue.total_apply, total_apply c n (Nat.lt_of_succ_lt h) j]
    exact (Fin.sum_univ_castSucc (fun s : Fin (n + 1 + 1) => partialLoss m c s.val (lt_of_le_of_lt (Nat.le_of_lt_succ s.isLt) h))).symm

end Cert.KernelIdeal.RunningTotal

end
-- ==== Proof.KernelArrays.lean ====
/-
  The kernel's two result arrays after the run, as functions of the scores.
  The region sees the scores as a 131072 × 128 matrix X (the flat vector reshaped, row-major). Point t is given rows
  4096·t … 4096·t + 4095 of X and writes σ of them back to the same rows of the decisions matrix; the 32 row blocks tile
  the matrix, so it ends as σ(X), entry by entry. The 1 × 1 loss block is written back once, after the last point, with
  the running total of all 32 points. After the region the decisions matrix is flattened again and the loss block is
  read as a scalar.
-/
import proofs.«121995_j57947698757715_1_alg».proof.Proof.RunningTotal
import Idealize.ShloMosaic.Lib.StableHlo.Run
import Idealize.ShloMosaic.Lib.Pipeline.Value

noncomputable section

namespace Cert.KernelIdeal.Arrays

open Cert.KernelIdeal Cert.KernelIdeal.Gen Cert.KernelIdeal.RunningTotal Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The block index maps over the grid: the scores and decisions windows move down one row block per point and never
    sideways; the loss window stays at its one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- The decisions payload is the sigmoid of the block, as one vector operation. -/
theorem pay2_eq (x : Vec F S4096x128 .f32) : k0_pay2 x = logistic x := by
  unfold k0_pay2
  rw [shapeCast_self]

/-! ## The decisions matrix -/

/-- What point `t` writes back is block `t` of σ(X). -/
theorem decisions_flushed (c : Dev nD) (t : Fin cfg0.N) :
    (dats m 0 c).flushed 1 t = ((cfg0.win 1).blk t).view.read (Elt F) (logistic (V m c main_call0_v0)) := by
  show (cfg0.win 1).cut (grid0.coords t) ((dats m 0 c).after 1 t) = _
  rw [after0_1, decisions_eq, pay2_eq]
  obtain ⟨e0, e1, e2, e3, -, -⟩ := idx_facts t
  funext j
  show FloatOps.logistic (V m c main_call0_v0 (((cfg0.win 0).blk t).view.emb j)) = FloatOps.logistic (V m c main_call0_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 4096 + 1 * (j 0).val = win0_1.index t (0 : Fin 2) * 4096 + 1 * (j 0).val; omega
    | ⟨1, _⟩ => show win0_0.index t (1 : Fin 2) * 128 + 1 * (j 1).val = win0_1.index t (1 : Fin 2) * 128 + 1 * (j 1).val; omega
  rw [h0]

/-- An entry is in point `t`'s decisions block iff each coordinate is in the block's range. -/
theorem mem_decisions_blk (t : Fin cfg0.N) (i : S131072x128.Idx) :
    i ∈ ((cfg0.win 1).blk t).view.set ↔ ∀ a : Fin 2, win0_1.index t a * S4096x128.size a ≤ (i a).val ∧ (i a).val < win0_1.index t a * S4096x128.size a + S4096x128.size a := by
  show i ∈ ((View.whole main_call0_v1_0).slice (win0_1.rect t)).set ↔ _
  rw [View.set_slice_whole, Rect.mem_set_unit]
  exact Iff.rfl

/-- Row `r` of the matrix lies in the block of point `r / 4096`: the blocks tile the matrix. -/
theorem decisions_cover (i : S131072x128.Idx) : ∃ t : Fin cfg0.N, (cfg0.win 1).flush t = true ∧ i ∈ ((cfg0.win 1).blk t).view.set := by
  have hi0 : (i 0).val < 131072 := (i 0).isLt
  have hi1 : (i 1).val < 128 := (i 1).isLt
  have hN : (32 : ℕ) = cfg0.N := N_0.symm
  have hq : (i 0).val / 4096 < 32 := by omega
  obtain ⟨-, -, e2, e3, -, -⟩ := idx_facts ⟨(i 0).val / 4096, lt_of_lt_of_eq hq hN⟩
  refine ⟨⟨(i 0).val / 4096, lt_of_lt_of_eq hq hN⟩, flush0_1 _, ?_⟩
  rw [mem_decisions_blk]
  intro a
  match a with
  | ⟨0, _⟩ =>
    show win0_1.index ⟨(i 0).val / 4096, lt_of_lt_of_eq hq hN⟩ (0 : Fin 2) * 4096 ≤ (i 0).val ∧ (i 0).val < win0_1.index ⟨(i 0).val / 4096, lt_of_lt_of_eq hq hN⟩ (0 : Fin 2) * 4096 + 4096
    rw [e2]; dsimp only; omega
  | ⟨1, _⟩ =>
    show win0_1.index ⟨(i 0).val / 4096, lt_of_lt_of_eq hq hN⟩ (1 : Fin 2) * 128 ≤ (i 1).val ∧ (i 1).val < win0_1.index ⟨(i 0).val / 4096, lt_of_lt_of_eq hq hN⟩ (1 : Fin 2) * 128 + 128
    rw [e3]; omega

/-- The decisions matrix ends as σ(X). -/
theorem decisions_final (c : Dev nD) : (dats m 0 c).arrAt 1 cfg0.N = logistic (V m c main_call0_v0) :=
  (dats m 0 c).arrAt_eq_of_cover 1 _ (fun t _ => decisions_flushed m c t) decisions_cover

/-! ## The loss block -/

theorem last_lt : 31 < cfg0.N := lt_of_lt_of_eq (by decide : 31 < 32) N_0.symm

/-- The one write-back of the loss block, after the last point, writes the running total of all 32 points. -/
theorem loss_flushed (c : Dev nD) (t : Fin cfg0.N) (hf : (cfg0.win 2).flush t = true) :
    (dats m 0 c).flushed 2 t = ((cfg0.win 2).blk t).view.read (Elt F) (total m c 31 last_lt) := by
  have h31 : t.val % 32 = 31 := (flush0_2 t).mp hf
  have hN : t.val < 32 := lt_of_lt_of_eq t.isLt (show cfg0.N = 32 from N_0)
  show (cfg0.win 2).cut (grid0.coords t) ((dats m 0 c).after 2 t) = _
  rw [after0_2, loss_eq m c t h31]
  obtain ⟨-, -, -, -, e4, e5⟩ := idx_facts t
  obtain ⟨n, hn⟩ := t
  obtain rfl : n = 31 := by dsimp only at h31 hN; omega
  funext j
  show total m c 31 _ j = total m c 31 _ (((cfg0.win 2).blk ⟨31, hn⟩).view.emb j)
  have hj : ((cfg0.win 2).blk ⟨31, hn⟩).view.emb j = j := by
    funext a; apply Fin.ext
    match a with
    | ⟨0, _⟩ => show win0_2.index ⟨31, hn⟩ (0 : Fin 2) * 1 + 1 * (j 0).val = (j 0).val; omega
    | ⟨1, _⟩ => show win0_2.index ⟨31, hn⟩ (1 : Fin 2) * 1 + 1 * (j 1).val = (j 1).val; omega
  rw [hj]

theorem mem_loss_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_call0_v1_1).slice (win0_2.rect t)).set ↔ _
  rw [View.set_slice_whole, Rect.mem_set_unit]
  exact Iff.rfl

theorem loss_cover (i : S1x1.Idx) : ∃ t : Fin cfg0.N, (cfg0.win 2).flush t = true ∧ i ∈ ((cfg0.win 2).blk t).view.set := by
  have hi0 : (i 0).val < 1 := (i 0).isLt
  have hi1 : (i 1).val < 1 := (i 1).isLt
  obtain ⟨-, -, -, -, e4, e5⟩ := idx_facts ⟨31, last_lt⟩
  refine ⟨⟨31, last_lt⟩, (flush0_2 _).mpr rfl, ?_⟩
  rw [mem_loss_blk]
  intro a
  match a with
  | ⟨0, _⟩ => show win0_2.index ⟨31, last_lt⟩ (0 : Fin 2) * 1 ≤ (i 0).val ∧ (i 0).val < win0_2.index ⟨31, last_lt⟩ (0 : Fin 2) * 1 + 1; omega
  | ⟨1, _⟩ => show win0_2.index ⟨31, last_lt⟩ (1 : Fin 2) * 1 ≤ (i 1).val ∧ (i 1).val < win0_2.index ⟨31, last_lt⟩ (1 : Fin 2) * 1 + 1; omega

/-- The loss block ends at the running total of all 32 points. -/
theorem loss_final (c : Dev nD) : (dats m 0 c).arrAt 2 cfg0.N = total m c 31 last_lt :=
  (dats m 0 c).arrAt_eq_of_cover 2 _ (loss_flushed m c) loss_cover

end Cert.KernelIdeal.Arrays

end
-- ==== Proof.FlatSum.lean ====
/-
  A sum over a flat vector of 16777216 = 32 · 4096 · 128 entries, regrouped as a sum over 32 row blocks, the 4096 rows
  of a block and the 128 lanes of a row. Entry (t, r, l) sits at flat position (4096·t + r)·128 + l: the vector is
  the row-major reading of a 131072 × 128 matrix whose rows 4096·t … 4096·t + 4095 form block t. The regrouping
  is a bijection of index sets, so it holds in any commutative additive monoid — in particular on the extended
  reals, with no finiteness asked of the summands.
-/
import Idealize.ShloMosaic.Lib.ValueIdx

noncomputable section

namespace Cert.SigmoidSquares

open Idealize.ShloMosaic Idealize.ShloMosaic.ValueIdx

/-- Flat position of lane `l` of row `r` of row block `t`. -/
def pos (t : Fin 32) (r : Fin 4096) (l : Fin 128) : Fin 16777216 :=
  ⟨(4096 * t.val + r.val) * 128 + l.val, by have := t.isLt; have := r.isLt; have := l.isLt; omega⟩

theorem pos_val (t : Fin 32) (r : Fin 4096) (l : Fin 128) : (pos t r l).val = (4096 * t.val + r.val) * 128 + l.val := rfl

/-- (block, row, lane) ↔ flat index: quotient and remainders by 524288 = 4096 · 128 and by 128. -/
def posEquiv : Fin 32 × Fin 4096 × Fin 128 ≃ (⟨1, ![16777216]⟩ : Shape).Idx where
  toFun p := ix1 (pos p.1 p.2.1 p.2.2)
  invFun i :=
    have h : (i 0).val < 16777216 := (i 0).isLt
    (⟨(i 0).val / 524288, by omega⟩, ⟨(i 0).val / 128 % 4096, by omega⟩, ⟨(i 0).val % 128, by omega⟩)
  left_inv := fun ⟨t, r, l⟩ => by
    have ht := t.isLt; have hr := r.isLt; have hl := l.isLt
    refine Prod.ext (Fin.ext ?_) (Prod.ext (Fin.ext ?_) (Fin.ext ?_))
    · show ((4096 * t.val + r.val) * 128 + l.val) / 524288 = t.val; omega
    · show ((4096 * t.val + r.val) * 128 + l.val) / 128 % 4096 = r.val; omega
    · show ((4096 * t.val + r.val) * 128 + l.val) % 128 = l.val; omega
  right_inv := fun i => by
    have h : (i 0).val < 16777216 := (i 0).isLt
    funext a
    match a with
    | ⟨0, _⟩ =>
      refine Fin.ext ?_
      show (4096 * ((i 0).val / 524288) + (i 0).val / 128 % 4096) * 128 + (i 0).val % 128 = (i 0).val
      omega

/-- The total over the flat vector is the total over blocks of the total over rows of the total over lanes. -/
theorem sum_flat {M : Type*} [AddCommMonoid M] (f : (⟨1, ![16777216]⟩ : Shape).Idx → M) :
    ∑ i, f i = ∑ t : Fin 32, ∑ r : Fin 4096, ∑ l : Fin 128, f (ix1 (pos t r l)) := by
  rw [← Equiv.sum_comp posEquiv f, Fintype.sum_prod_type]
  refine Finset.sum_congr rfl fun t _ => ?_
  rw [Fintype.sum_prod_type]
  rfl

end Cert.SigmoidSquares

end
-- ==== Proof.KernelRun.lean ====
/-
  The idealized kernel's run, read: its two results as functions of the flat scores vector x.
  Before the region x is reshaped to the 131072 × 128 matrix X, so X(4096·t + r, l) = x((4096·t + r)·128 + l); after it
  the decisions matrix σ(X) is flattened back — a reshape there and back is the identity, so the first result is σ(x)
  entry by entry — and the 1 × 1 loss block is read as a scalar: the sum over the 32 points of their partial losses,
  which is the sum over blocks, rows and lanes of σ(x)² at the flat position of (block, row, lane).
-/
import proofs.«121995_j57947698757715_1_alg».proof.Proof.KernelArrays
import proofs.«121995_j57947698757715_1_alg».proof.Proof.FlatSum

noncomputable section

namespace Cert.KernelIdeal.Run

open Cert.KernelIdeal Cert.KernelIdeal.Gen Cert.KernelIdeal.RunningTotal Cert.KernelIdeal.Arrays
open Idealize.ShloMosaic Idealize.ShloMosaic.TcCoe Idealize.SL.Sem Idealize.ShloMosaic.ValueIdx
open Cert.SigmoidSquares (pos pos_val)

section AnyInstance

variable {F : FTy → Type} [FloatOps F]
variable (m : (ℓ : Loc nD τ sig) → Buf (Elt F) ℓ) (ρ : Dev nD → PrngReg)

/-- Before the region: the matrix the region reads is the flat scores reshaped. -/
theorem scores_matrix (c : Dev nD) : (V m c main_call0_v0 : S131072x128.Idx → Elt F .f32)
    = shapeCast S131072x128 (m ((c : Thread nD τ).loc main_arg0)) shapeCasts_S16777216_S131072x128 := by
  show StableHlo.after hostOps0 (fun b => m (c, b)) (Proc.devRef .tc main_call0_v0) = _
  after_results
  rfl

/-- After the region: the first result is the decisions matrix flattened. -/
theorem tail_decisions (c : Dev nD) : Pipeline.afterTail₀ cfgs (dats m) 0 (V0 m) [hostOps1] c main_v0_0
    = shapeCast S16777216 ((dats m 0 c).arrAt 1 cfg0.N) shapeCasts_S131072x128_S16777216 := by
  unfold Pipeline.afterTail₀
  show StableHlo.after hostOps1 _ (Proc.devRef .tc main_v0_0) = _
  after_results
  have e := Pipeline.withArrays_arr (cfgs 0).spec launch0.win.arr_inj c (V0 m c) (fun w => (dats m 0 c).arrAt w (cfgs 0).N) 1
  show shapeCast S16777216 (Pipeline.withArrays (cfgs 0).spec c (V0 m c) (fun w => (dats m 0 c).arrAt w (cfgs 0).N) (Proc.devRef .tc (Pipeline.arrRef (cfgs 0).spec 1))) shapeCasts_S131072x128_S16777216 = _
  rw [e]

/-- After the region: the second result is the loss block read as a scalar. -/
theorem tail_loss (c : Dev nD) : Pipeline.afterTail₀ cfgs (dats m) 0 (V0 m) [hostOps1] c main_v0_1
    = shapeCast S_ ((dats m 0 c).arrAt 2 cfg0.N) shapeCasts_S1x1_S_ := by
  unfold Pipeline.afterTail₀
  show StableHlo.after hostOps1 _ (Proc.devRef .tc main_v0_1) = _
  after_results
  have e := Pipeline.withArrays_arr (cfgs 0).spec launch0.win.arr_inj c (V0 m c) (fun w => (dats m 0 c).arrAt w (cfgs 0).N) 2
  show shapeCast S_ (Pipeline.withArrays (cfgs 0).spec c (V0 m c) (fun w => (dats m 0 c).arrAt w (cfgs 0).N) (Proc.devRef .tc (Pipeline.arrRef (cfgs 0).spec 2))) shapeCasts_S1x1_S_ = _
  rw [e]

/-- The first result: the sigmoid of the scores matrix, flattened. -/
abbrev decisions (c : Dev nD) : Buf (Elt F) ((c : Thread nD τ).loc main_v0_0) :=
  shapeCast S16777216 (logistic (shapeCast S131072x128 (m ((c : Thread nD τ).loc main_arg0)) shapeCasts_S16777216_S131072x128)) shapeCasts_S131072x128_S16777216

/-- The second result: the running total of all 32 points, as a scalar. -/
abbrev loss (c : Dev nD) : Buf (Elt F) ((c : Thread nD τ).loc main_v0_1) :=
  shapeCast S_ (total m c 31 last_lt) shapeCasts_S1x1_S_

/-- The run, read: every weakly fair execution terminates with the two results at these values and the arguments unchanged. -/
theorem run : θ_run defs (onTc (τ := τ) (main (F := F))) ⟨m, fun _ => 0, ρ⟩ fun r => ∀ c : Dev nD,
      r.2.mem ((c : Thread nD τ).loc main_v0_0) = decisions m c
      ∧ r.2.mem ((c : Thread nD τ).loc main_v0_1) = loss m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v0_0 (Pipeline.mem_restRefs_of main_v0_0 (by decide) (by decide))).trans
        ((tail_decisions m c).trans (by rw [decisions_final, scores_matrix])),
      ((h c).2 main_v0_1 (Pipeline.mem_restRefs_of main_v0_1 (by decide) (by decide))).trans
        ((tail_loss m c).trans (by rw [loss_final])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- Entry (r, l) of point `t`'s scores block is the flat scores at the position of (t, r, l). -/
theorem block_entry (c : Dev nD) (t : Fin cfg0.N) (ht : t.val < 32) (r : Fin 4096) (l : Fin 128) :
    xblk m c t (ix2 r l) = m ((c : Thread nD τ).loc main_arg0) (ix1 (pos ⟨t.val, ht⟩ r l)) := by
  obtain ⟨e0, e1, -, -, -, -⟩ := Arrays.idx_facts t
  unfold xblk iblk
  rw [View.read_apply]
  show V m c main_call0_v0 (((cfg0.win 0).blk t).view.emb (ix2 r l)) = _
  refine (congrFun (scores_matrix m c) _).trans ?_
  refine shapeCast_apply _ _ _ (ix1 (pos ⟨t.val, ht⟩ r l)) ?_
  rw [Shape.rowMajor_val_one, Shape.rowMajor_val_two]
  show (4096 * t.val + r.val) * 128 + l.val = (win0_0.index t (0 : Fin 2) * 4096 + 1 * r.val) * 128 + (win0_0.index t (1 : Fin 2) * 128 + 1 * l.val)
  rw [e0, e1]
  omega

end AnyInstance

/-! ## Over the extended reals -/

variable (m : (ℓ : Loc nD τ sig) → Buf (Elt Ideal) ℓ)

/-- The first result is σ(x), entry by entry. -/
theorem decisions_apply (c : Dev nD) (i : S16777216.Idx) :
    (decisions m c : FVec Ideal S16777216 .f32) i = Ideal.logistic ((m ((c : Thread nD τ).loc main_arg0) : FVec Ideal S16777216 .f32) i) := by
  show shapeCast S16777216 (shapeCast S131072x128 (logistic (F := Ideal) (m ((c : Thread nD τ).loc main_arg0))) shapeCasts_S16777216_S131072x128) shapeCasts_S131072x128_S16777216 i = _
  rw [shapeCast_shapeCast]
  rfl

/-- The second result is the sum over blocks, rows and lanes of σ(x)² at the flat position of (block, row, lane). -/
theorem loss_apply (c : Dev nD) (j : S_.Idx) :
    (loss m c : FVec Ideal S_ .f32) j = ∑ t : Fin 32, ∑ r : Fin 4096, ∑ l : Fin 128,
      Ideal.logistic ((m ((c : Thread nD τ).loc main_arg0) : FVec Ideal S16777216 .f32) (ix1 (pos t r l)))
        * Ideal.logistic ((m ((c : Thread nD τ).loc main_arg0) : FVec Ideal S16777216 .f32) (ix1 (pos t r l))) := by
  unfold loss shapeCast
  rw [total_apply]
  show ∑ s : Fin 32, partialLoss m c s.val _ = _
  refine Finset.sum_congr rfl fun s _ => ?_
  unfold partialLoss
  refine Finset.sum_congr rfl fun r _ => Finset.sum_congr rfl fun l _ => ?_
  rw [block_entry m c ⟨s.val, _⟩ s.isLt r l]

end Cert.KernelIdeal.Run

end
-- ==== Proof.Sigmoid.lean ====
/-
  The sigmoid on the extended reals: σ(x) = 1 / (1 + e^(−x)), with σ(−∞) = 0 and σ(+∞) = 1 by the conventions of the
  exact division and exponential. The kernel applies it as one operation; the reference spells it out as a
  negation, an exponential, an addition to the constant 1.0 and a division of the constant 1.0 by the result. The two
  agree at every extended real once the float word of 1.0 is read as the number 1.
-/
import Idealize.ShloMosaic.PureOps.Ideal
import Idealize.ShloMosaic.PureOps.IdealRules

noncomputable section

namespace Cert.SigmoidSquares

open Idealize.ShloMosaic

/-- The f32 word of 1.0 denotes the number 1. -/
theorem one_word : Ideal.ofBits .f32 0x3F800000#32 = 1 := IdealRules.sign_bit.ideal_onePat .f32

/-- The reference's spelled-out sigmoid is the sigmoid. -/
theorem host_sigmoid (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = Ideal.div 1 (1 + Ideal.exp (-x))
  rw [one_word]

end Cert.SigmoidSquares

end
-- ==== Proof.RefValue.lean ====
/-
  The reference's two results as functions of the flat scores x, over the extended reals.
  Its decisions are 1 / (1 + e^(−x)) spelled out in four host operations with the constant 1.0 broadcast twice: the
  sigmoid σ(x), entry by entry. Its loss is the host's sum of σ(x)·σ(x) over all 16777216 entries from the initial value 0:
  that initial value adds nothing, and the total regroups as a sum over row blocks, rows and lanes.
-/
import proofs.«121995_j57947698757715_1_alg».proof.Defs
import proofs.«121995_j57947698757715_1_alg».proof.Proof.Gen.ReferenceIdeal.Read
import proofs.«121995_j57947698757715_1_alg».proof.Proof.Sigmoid
import proofs.«121995_j57947698757715_1_alg».proof.Proof.FlatSum

noncomputable section

namespace Cert.ReferenceIdeal.RefValue

open Cert.ReferenceIdeal Cert.ReferenceIdeal.Gen Cert.ReferenceIdeal.Read
open Idealize.ShloMosaic Idealize.ShloMosaic.ValueIdx
open Cert.SigmoidSquares (pos host_sigmoid sum_flat)

/-- The reference's decisions are σ(x), entry by entry. -/
theorem decisions_apply (x : FVec Ideal S16777216 .f32) (i : S16777216.Idx) :
    val_main_v5 (F := Ideal) x i = Ideal.logistic (x i) := by
  rw [val_main_v5_apply, val_main_v4_apply, val_main_cst_0_apply, val_main_v3_apply, val_main_v2_apply, val_main_cst_apply,
    val_main_v1_apply, val_main_v0_apply]
  exact host_sigmoid (x i)

/-- The reference's loss is the sum over blocks, rows and lanes of σ(x)² at the flat position of (block, row, lane). -/
theorem loss_apply (x : FVec Ideal S16777216 .f32) (j : S_.Idx) :
    val_main_v7 (F := Ideal) x j = ∑ t : Fin 32, ∑ r : Fin 4096, ∑ l : Fin 128,
      Ideal.logistic (x (ix1 (pos t r l))) * Ideal.logistic (x (ix1 (pos t r l))) := by
  rw [val_main_v7_apply, val_main_cst_1_apply]
  show Ideal.ofBits .f32 0x00000000#32 + _ = _
  rw [Ideal.ofBits_zero_f32, zero_add, sum_flat]
  refine Finset.sum_congr rfl fun t _ => Finset.sum_congr rfl fun r _ => Finset.sum_congr rfl fun l _ => ?_
  rw [val_main_v6_apply, decisions_apply]
  rfl

end Cert.ReferenceIdeal.RefValue

end
-- ==== Proof.lean ====
/-
  Sigmoid decisions and their sum of squares: a pipelined kernel against the plain array program.

  Both programs take a vector x of 16777216 scores (and an integer argument neither reads) and return
  d = σ(x) = 1 / (1 + e^(−x)) entry by entry, and the scalar Σᵢ dᵢ².
  The kernel reshapes x to a 131072 × 128 matrix and walks it in 32 row blocks of 4096 rows. Each point writes σ of
  its block to the same rows of the decisions matrix, reduces σ² over the lanes and then over the rows of its block, and
  adds the result to a 1 × 1 running total, set to 0 at the first point and copied to the loss block at the last. The
  reference applies σ as negate, exponential, add 1, divide 1 by it, and sums d·d over the whole vector from 0.

  Over the extended reals the kernel's one-operation sigmoid and the reference's four-operation one are the same function
  at every value, infinite ones included, once the word of 1.0 is read as 1. The two losses are the same terms σ(xᵢ)²
  added in different groupings: addition of extended reals is commutative and associative, so the sums agree whatever
  the values; the hypothesis that the scores are finite is not used. Reshaping to the matrix and back is the identity.
  The idealization rewrote nothing, so nothing is owed for it.

  The kernels' frames are the generated ones; the reference's is its generated run with the results dropped.
-/
import proofs.«121995_j57947698757715_1_alg».proof.Defs
import proofs.«121995_j57947698757715_1_alg».proof.Proof.Gen.Kernel
import proofs.«121995_j57947698757715_1_alg».proof.Proof.Gen.Kernel.Frame
import proofs.«121995_j57947698757715_1_alg».proof.Proof.Gen.KernelIdeal
import proofs.«121995_j57947698757715_1_alg».proof.Proof.Gen.KernelIdeal.Frame
import proofs.«121995_j57947698757715_1_alg».proof.Proof.Gen.ReferenceIdeal
import proofs.«121995_j57947698757715_1_alg».proof.Proof.Gen.ReferenceIdeal.Read
import proofs.«121995_j57947698757715_1_alg».proof.Proof.Gen.Pre_finite_inputs
import proofs.«121995_j57947698757715_1_alg».proof.Proof.KernelRun
import proofs.«121995_j57947698757715_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

theorem preserves : Cert.preserves_Kernel_KernelIdeal := trivial

/-- Both programs end with σ(x) and Σ σ(x)², the latter as one sum over (block, row, lane). -/
theorem algebraic : Cert.algebraic_KernelIdeal_ReferenceIdeal := by
  intro m ρ m' ρ' _ hagree
  refine ⟨fun c => Cert.KernelIdeal.Run.decisions m c, fun c => Cert.KernelIdeal.Run.loss m c,
    Cert.KernelIdeal.Run.run (F := Ideal) m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v5_eq, (hagree c).1]
    funext i
    rw [Cert.ReferenceIdeal.RefValue.decisions_apply]
    exact (Cert.KernelIdeal.Run.decisions_apply m c i).symm
  · rw [Cert.ReferenceIdeal.Read.val_main_v7_eq, (hagree c).1]
    funext j
    rw [Cert.ReferenceIdeal.RefValue.loss_apply]
    exact (Cert.KernelIdeal.Run.loss_apply m c j).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
